-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x2048 : Shape := ⟨2, ![256, 2048]⟩
abbrev S256 : Shape := ⟨1, ![256]⟩
abbrev S65536x2048 : Shape := ⟨2, ![65536, 2048]⟩
abbrev S_ : Shape := ⟨0, ![]⟩

class Facts : Prop where
  bcast_S_S256x2048 : S_.BroadcastsInDim S256x2048 (![] : Fin 0 → Fin S256x2048.rank)
  reducesTo_S256x2048_S_d0_1 : S256x2048.ReducesTo [0, 1] S_
  h_S_ : 0 < S_.numel
  bcast_S_S65536x2048 : S_.BroadcastsInDim S65536x2048 (![] : Fin 0 → Fin S65536x2048.rank)
  reducesTo_S65536x2048_S_d0_1 : S65536x2048.ReducesTo [0, 1] S_

variable [Facts]

def fn {F : FTy → Type} [FloatOps F] (main_arg0 : FVec F S256x2048 .f32) (main_arg1 : FVec F S256x2048 .f32) (main_arg2 : IVec S256 32) (main_arg3 : FVec F S65536x2048 .f32) : IVec S_ 1 :=
  let main_v0 : FVec F S256x2048 .f32 := Host.absf main_arg0
  let main_cst : FVec F S_ .f32 := constant S_ .f32 0x7F800000#32
  let main_v1 : FVec F S256x2048 .f32 := broadcastInDim S256x2048 ![] bcast_S_S256x2048 main_cst
  let main_v2 : IVec S256x2048 1 := cmpf .olt main_v0 main_v1
  let main_c : IVec S_ 1 := constantI S_ 1 1#1
  let main_v3 : IVec S_ 1 := (fun x v => Host.reduce IntOp.andi x v reducesTo_S256x2048_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S65536x2048 .f32 := Host.absf main_arg3
  let main_cst_2 : FVec F S_ .f32 := constant S_ .f32 0x7F800000#32
  let main_v10 : FVec F S65536x2048 .f32 := broadcastInDim S65536x2048 ![] bcast_S_S65536x2048 main_cst_2
  let main_v11 : IVec S65536x2048 1 := cmpf .olt main_v9 main_v10
  let main_c_3 : IVec S_ 1 := constantI S_ 1 1#1
  let main_v12 : IVec S_ 1 := (fun x v => Host.reduce IntOp.andi x v reducesTo_S65536x2048_S_d0_1 h_S_) main_v11 main_c_3
  let main_v13 : IVec S_ 1 := andi main_v8 main_v12
  main_v13
-- ==== Kernel.lean ====
abbrev S256x2048 : Shape := ⟨2, ![256, 2048]⟩
abbrev S256 : Shape := ⟨1, ![256]⟩
abbrev S65536x2048 : Shape := ⟨2, ![65536, 2048]⟩
abbrev S256x65536 : Shape := ⟨2, ![256, 65536]⟩
abbrev S2048x2048 : Shape := ⟨2, ![2048, 2048]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256, .i32⟩
  | .hbm, ⟨3, _⟩ => ⟨S65536x2048, .f32⟩
  | .hbm, ⟨4, _⟩ => ⟨S256x65536, .f32⟩
  | .local _ .vmem, ⟨0, _⟩ => ⟨S256x2048, .f32⟩
  | .local _ .vmem, ⟨1, _⟩ => ⟨S2048x2048, .f32⟩
  | .local _ .vmem, ⟨2, _⟩ => ⟨S2048x2048, .f32⟩
  | .local _ .vmem, ⟨3, _⟩ => ⟨S256x2048, .f32⟩
  | .local _ .vmem, ⟨4, _⟩ => ⟨S256x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  bitsLt_bf16_f32 : FTy.bits .bf16 < FTy.bits .f32
  inb_S2048x2048_S2048x2048_0_0 : ∀ a, (![0, 0] : Fin 2 → Nat) a + S2048x2048.size a ≤ S2048x2048.size a
  h_S2048x2048 : 0 < S2048x2048.numel
  dot_S256x2048_S2048x2048_S256x2048_1_1_0_0_n_n_wf : DotDims.WF S256x2048 S2048x2048 S256x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S256x2048.size a
  hwx0_0 : ∀ i : grid0.Coords, EltTy.bits .f32 = 32 ∨ (Rect.block (s := S256x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S65536x2048.size a
  hwx0_1 : ∀ i : grid0.Coords, EltTy.bits .f32 = 32 ∨ (Rect.block (s := S65536x2048) S2048x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x65536.size a
  hwx0_2 : ∀ i : grid0.Coords, EltTy.bits .f32 = 32 ∨ (Rect.block (s := S256x65536) S256x2048.size (cc0_transform_2 i) (hinb0_2 i)).WholeWords (EltTy.packing .f32)

variable [Facts₀]

def dot_S256x2048_S2048x2048_S256x2048_1_1_0_0_n_n : DotDims S256x2048 S2048x2048 S256x2048 where
  lhsContracting := [1]
  rhsContracting := [1]
  lhsNonContracting := [0]
  rhsNonContracting := [0]
  lhsBatch := []
  rhsBatch := []
  wf := dot_S256x2048_S2048x2048_S256x2048_1_1_0_0_n_n_wf

abbrev win0_0 : Pipeline.Window sig grid0 :=
  Pipeline.Window.ofSpec (Memref.whole main_arg0) S256x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2048x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S256x2048 : Shape := ⟨2, ![256, 2048]⟩
abbrev S256 : Shape := ⟨1, ![256]⟩
abbrev S65536x2048 : Shape := ⟨2, ![65536, 2048]⟩
abbrev S2048x65536 : Shape := ⟨2, ![2048, 65536]⟩
abbrev S256x65536 : Shape := ⟨2, ![256, 65536]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S256, .i32⟩
  | .hbm, ⟨3, _⟩ => ⟨S65536x2048, .f32⟩
  | .hbm, ⟨4, _⟩ => ⟨S2048x65536, .f32⟩
  | .hbm, ⟨5, _⟩ => ⟨S256x65536, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩

abbrev nD : Nat := 1
abbrev τ : Topo := Topo.v7x

variable {F : FTy → Type} [FloatOps F]

class Facts₀ : Prop where
  transposes_S65536x2048_S2048x65536_1_0 : S65536x2048.Transposes [1, 0] S2048x65536
  dot_S256x2048_S2048x65536_S256x65536_1_0_0_1_n_n_wf : DotDims.WF S256x2048 S2048x65536 S256x65536 [1] [0] [0] [1] [] []

variable [Facts₀]

def dot_S256x2048_S2048x65536_S256x65536_1_0_0_1_n_n : DotDims S256x2048 S2048x65536 S256x65536 where
  lhsContracting := [1]
  rhsContracting := [0]
  lhsNonContracting := [0]
  rhsNonContracting := [1]
  lhsBatch := []
  rhsBatch := []
  wf := dot_S256x2048_S2048x65536_S256x65536_1_0_0_1_n_n_wf

class Facts : Prop extends Facts₀ where

variable [Facts]
-- ==== Proof.Logits.lean ====
/-
  The similarity logits of 256 query rows against a bank of 65536 rows, every row of 2048 features: entry (p, q) is
  the inner product of query row p with bank row q, the sum over the feature axis k of x[p, k] · f[q, k], taken on
  the extended reals (a commutative monoid under +, so the sum has no order). Both programs are shown to end with
  this one array: the blocked kernel computes it 2048 bank rows at a time, the reference transposes the bank and
  contracts the query's second axis with the transposed bank's first.
-/
import Idealize.ShloMosaic.PureOps.Ideal
import Idealize.ShloMosaic.Lib.ValueIdx

noncomputable section

open scoped BigOperators

namespace Cert.Logits

open Idealize.ShloMosaic Idealize.ShloMosaic.ValueIdx

/-- The queries: 256 rows of 2048 features. -/
abbrev Queries : Shape := ⟨2, ![256, 2048]⟩
/-- The memory bank: 65536 rows of 2048 features. -/
abbrev Bank : Shape := ⟨2, ![65536, 2048]⟩
/-- The logits: one entry per (query row, bank row). -/
abbrev Out : Shape := ⟨2, ![256, 65536]⟩

/-- Entry (p, q) of the logits: the inner product of query row p and bank row q. -/
def logits (x : Queries.Idx → EReal) (f : Bank.Idx → EReal) : Out.Idx → EReal :=
  fun i => ∑ k : Fin 2048, x (ix2 (n0 := 256) (i 0) k) * f (ix2 (n0 := 65536) (i 1) k)

/-- The same at explicit coordinates. -/
theorem logits_ix2 (x : Queries.Idx → EReal) (f : Bank.Idx → EReal) (p : Fin 256) (q : Fin 65536) :
    logits x f (ix2 p q) = ∑ k : Fin 2048, x (ix2 p k) * f (ix2 q k) := rfl

end Cert.Logits

end
-- ==== Proof.RefLogits.lean ====
/-
  The reference's result is the logits. The reference first transposes the bank, t[k, q] = f[q, k], and then contracts
  the queries' feature axis with the transposed bank's first axis: entry (p, q) is the sum over k of x[p, k] · t[k, q],
  which is the sum over k of x[p, k] · f[q, k], the inner product of query row p and bank row q.
-/
import proofs.«405156_j42958262894874_3_alg».proof.Proof.Gen.ReferenceIdeal.Read
import proofs.«405156_j42958262894874_3_alg».proof.Proof.Logits

noncomputable section

open scoped BigOperators

namespace Cert.ReferenceIdeal.RefLogits

open Cert.ReferenceIdeal Cert.ReferenceIdeal.Read Cert.Logits
open Idealize.ShloMosaic Idealize.ShloMosaic.ValueIdx

/-- The left operand of the contraction at (p, q), k is the query entry (p, k). -/
theorem query_index (i : S256x65536.Idx) (k : Fin 2048) : lidx_main_v1 i k = ix2 (n0 := 256) (i 0) k :=
  funext fun a => Fin.ext (by match a with | ⟨0, _⟩ => rfl | ⟨1, _⟩ => rfl)

/-- The right operand at (p, q), k is entry (k, q) of the transposed bank, which is the bank's entry (q, k). -/
theorem bank_index (i : S256x65536.Idx) (k : Fin 2048) : idx_main_v0 (ridx_main_v1 i k) = ix2 (n0 := 65536) (i 1) k :=
  funext fun a => Fin.ext (by match a with | ⟨0, _⟩ => rfl | ⟨1, _⟩ => rfl)

/-- The contraction of the queries with the transposed bank is the array of inner products of rows. -/
theorem reference_is_logits (x0 : (⟨S256x2048, .f32⟩ : BufTy).Contents (Elt Ideal))
    (x3 : (⟨S65536x2048, .f32⟩ : BufTy).Contents (Elt Ideal)) :
    val_main_v1 (F := Ideal) x0 x3 = logits x0 x3 := by
  funext i
  rw [val_main_v1_apply]
  refine Finset.sum_congr rfl fun k _ => ?_
  rw [val_main_v0_apply, query_index, bank_index]

end Cert.ReferenceIdeal.RefLogits

end
-- ==== Proof.BlockProduct.lean ====
/-
  One grid step's arithmetic. The body reads the whole query block x (256 × 2048) and one block y of 2048 bank rows
  (2048 × 2048), narrows both (the identity on the extended reals), and contracts the feature axis of both into a
  zero accumulator: entry (p, j) of what it stores is the sum over k of x[p, k] · y[j, k], the inner product of
  query row p with row j of the bank block.
-/
import proofs.«405156_j42958262894874_3_alg».proof.Proof.Gen.KernelIdeal.Skeleton
import Idealize.ShloMosaic.PureOps.Ideal.Laws
import Idealize.ShloMosaic.Lib.ValueIdx

noncomputable section

open scoped BigOperators

namespace Cert.KernelIdeal.BlockProduct

open Cert.KernelIdeal Cert.KernelIdeal.Gen
open Idealize.ShloMosaic Idealize.ShloMosaic.ValueIdx

/-- On the left operand's row axis the contraction reads the output's row. -/
theorem lhs_row (i : S256x2048.Idx) (q : dot_S256x2048_S2048x2048_S256x2048_1_1_0_0_n_n.contr.Idx) :
    (dot_S256x2048_S2048x2048_S256x2048_1_1_0_0_n_n.lhsIdx i q 0).val = (i 0).val := by
  unfold DotDims.lhsIdx
  rw [dif_neg (show ¬(0 : Fin S256x2048.rank) ∈ dot_S256x2048_S2048x2048_S256x2048_1_1_0_0_n_n.lhsBatch by decide), dif_pos (show (0 : Fin S256x2048.rank) ∈ dot_S256x2048_S2048x2048_S256x2048_1_1_0_0_n_n.lhsNonContracting by decide)]
  rfl
/-- On the left operand's feature axis it reads the contraction position. -/
theorem lhs_feature (i : S256x2048.Idx) (q : dot_S256x2048_S2048x2048_S256x2048_1_1_0_0_n_n.contr.Idx) :
    (dot_S256x2048_S2048x2048_S256x2048_1_1_0_0_n_n.lhsIdx i q 1).val = (q ⟨0, by decide⟩).val :=
  dot_S256x2048_S2048x2048_S256x2048_1_1_0_0_n_n.lhsIdx_val_of_single rfl i q
/-- On the right operand's row axis it reads the output's column. -/
theorem rhs_row (i : S256x2048.Idx) (q : dot_S256x2048_S2048x2048_S256x2048_1_1_0_0_n_n.contr.Idx) :
    (dot_S256x2048_S2048x2048_S256x2048_1_1_0_0_n_n.rhsIdx i q 0).val = (i 1).val := by
  unfold DotDims.rhsIdx
  rw [dif_neg (show ¬(0 : Fin S2048x2048.rank) ∈ dot_S256x2048_S2048x2048_S256x2048_1_1_0_0_n_n.rhsBatch by decide), dif_pos (show (0 : Fin S2048x2048.rank) ∈ dot_S256x2048_S2048x2048_S256x2048_1_1_0_0_n_n.rhsNonContracting by decide)]
  rfl
/-- On the right operand's feature axis it reads the contraction position. -/
theorem rhs_feature (i : S256x2048.Idx) (q : dot_S256x2048_S2048x2048_S256x2048_1_1_0_0_n_n.contr.Idx) :
    (dot_S256x2048_S2048x2048_S256x2048_1_1_0_0_n_n.rhsIdx i q 1).val = (q ⟨0, by decide⟩).val :=
  dot_S256x2048_S2048x2048_S256x2048_1_1_0_0_n_n.rhsIdx_val_of_single rfl i q

/-- Entry (p, j) of the stored block: the inner product of query row p and row j of the bank block. -/
theorem stored_apply (x : Vec Ideal S256x2048 .f32) (y : Vec Ideal S2048x2048 .f32) (p : Fin 256) (j : Fin 2048) :
    k0_pay1 (F := Ideal) x y (ix2 p j) = ∑ k : Fin 2048, x (ix2 p k) * y (ix2 j k) := by
  unfold k0_pay1
  simp only [matmul]
  rw [Ideal.matmul_constant_zero_apply, ← Equiv.sum_comp (contrEquiv1 dot_S256x2048_S2048x2048_S256x2048_1_1_0_0_n_n 2048 rfl rfl).symm]
  refine Finset.sum_congr rfl fun k _ => ?_
  have hk := contrEquiv1_symm_val dot_S256x2048_S2048x2048_S256x2048_1_1_0_0_n_n 2048 rfl rfl k
  have el : dot_S256x2048_S2048x2048_S256x2048_1_1_0_0_n_n.lhsIdx (ix2 p j) ((contrEquiv1 dot_S256x2048_S2048x2048_S256x2048_1_1_0_0_n_n 2048 rfl rfl).symm k) = ix2 p k := funext fun a => Fin.ext (by
    match a with
    | ⟨0, _⟩ => exact lhs_row _ _
    | ⟨1, _⟩ => exact (lhs_feature _ _).trans hk)
  have er : dot_S256x2048_S2048x2048_S256x2048_1_1_0_0_n_n.rhsIdx (ix2 p j) ((contrEquiv1 dot_S256x2048_S2048x2048_S256x2048_1_1_0_0_n_n 2048 rfl rfl).symm k) = ix2 j k := funext fun a => Fin.ext (by
    match a with
    | ⟨0, _⟩ => exact rhs_row _ _
    | ⟨1, _⟩ => exact (rhs_feature _ _).trans hk)
  rw [el, er]
  rfl

end Cert.KernelIdeal.BlockProduct

end
-- ==== Proof.LogitsArray.lean ====
/-
  From blocks to the array. Grid step n (of 32) fetches the whole query array and rows 2048·n … 2048·n + 2047 of the
  bank, and writes back columns 2048·n … 2048·n + 2047 of the output. Entry (p, j) of what it writes is the inner
  product of query row p with bank row 2048·n + j, which is entry (p, 2048·n + j) of the logits: every step writes its
  block of one array, the 32 column blocks tile the output (column q lies in the block of step q / 2048), and so the
  output array ends holding the logits of the argument arrays.
-/
import proofs.«405156_j42958262894874_3_alg».proof.Proof.Gen.KernelIdeal.Value
import proofs.«405156_j42958262894874_3_alg».proof.Proof.BlockProduct
import proofs.«405156_j42958262894874_3_alg».proof.Proof.Logits
import Idealize.ShloMosaic.Lib.Pipeline.Value
import Idealize.ShloMosaic.Lib.Tactic

noncomputable section

open scoped BigOperators

namespace Cert.KernelIdeal.LogitsArray

open Cert.KernelIdeal Cert.KernelIdeal.Gen Cert.KernelIdeal.Value Cert.KernelIdeal.BlockProduct Cert.Logits
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- What a step stores when its query block is the query array and its bank block is rows 2048·n … of the bank:
    column block n of the logits. -/
theorem step_eq (x : Vec Ideal S256x2048 .f32) (y : Vec Ideal S2048x2048 .f32)
    (X : Queries.Idx → EReal) (B : Bank.Idx → EReal) (n : Nat) (hn : n < 32)
    (hx : ∀ (p : Fin 256) (k : Fin 2048), x (ix2 p k) = X (ix2 p k))
    (hy : ∀ (j : Fin 2048) (k : Fin 2048), y (ix2 j k) = B (ix2 (⟨n * 2048 + j.val, by omega⟩ : Fin 65536) k))
    (p : Fin 256) (j : Fin 2048) :
    k0_pay1 (F := Ideal) x y (ix2 p j) = logits X B (ix2 p (⟨n * 2048 + j.val, by omega⟩ : Fin 65536)) := by
  rw [stored_apply, logits_ix2]
  exact Finset.sum_congr rfl fun k _ => by rw [hx, hy]

/-- The printed index maps over the grid: the query window stays at block (0, 0), the bank window is at block (n, 0)
    and the output window at block (0, n) at step n. -/
theorem index_facts : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val :=
  (by decide +kernel : ∀ t : Fin grid0.N, _)

/-- What step t writes back is block t of the logits of the arrays as the region finds them. -/
theorem flushed_eq (c : Dev nD) (t : Fin cfg0.N) :
    (dats m 0 c).flushed 2 t = ((cfg0.win 2).blk t).view.read (Elt Ideal) (logits (V m c main_arg0) (V m c main_arg3)) := by
  rw [Value.flushed2]
  unfold out0_2
  rw [View.canon_unit_zero zero_offsets]
  simp only [View.ld_unit_zero (S := S256x2048) zero_offsets, View.ld_unit_zero (S := S2048x2048) zero_offsets]
  obtain ⟨e0, e1, e2, e3, e4, e5⟩ := index_facts t
  have ht : t.val < 32 := lt_of_lt_of_eq t.isLt N_0
  funext j
  obtain ⟨p, q, rfl⟩ : ∃ (p : Fin 256) (q : Fin 2048), j = ix2 p q := ⟨j 0, j 1, eq_ix2 j⟩
  show k0_pay1 (F := Ideal) (iblk m c 0 t) (iblk m c 1 t) (ix2 p q)
    = logits (V m c main_arg0) (V m c main_arg3) (((cfg0.win 2).blk t).view.emb (ix2 p q))
  have hout : ((cfg0.win 2).blk t).view.emb (ix2 p q) = ix2 p (⟨t.val * 2048 + q.val, by omega⟩ : Fin 65536) := by
    funext a; apply Fin.ext
    match a with
    | ⟨0, _⟩ => show win0_2.index t (0 : Fin 2) * 256 + 1 * p.val = p.val; omega
    | ⟨1, _⟩ => show win0_2.index t (1 : Fin 2) * 2048 + 1 * q.val = t.val * 2048 + q.val; omega
  rw [hout]
  refine step_eq _ _ _ _ t.val ht ?_ ?_ p q
  · intro p k
    show V m c main_arg0 (((cfg0.win 0).blk t).view.emb (ix2 p k)) = V m c main_arg0 (ix2 p k)
    refine congrArg _ (funext fun a => Fin.ext ?_)
    match a with
    | ⟨0, _⟩ => show win0_0.index t (0 : Fin 2) * 256 + 1 * p.val = p.val; omega
    | ⟨1, _⟩ => show win0_0.index t (1 : Fin 2) * 2048 + 1 * k.val = k.val; omega
  · intro j k
    show V m c main_arg3 (((cfg0.win 1).blk t).view.emb (ix2 j k)) = V m c main_arg3 (ix2 (⟨t.val * 2048 + j.val, by omega⟩ : Fin 65536) k)
    refine congrArg _ (funext fun a => Fin.ext ?_)
    match a with
    | ⟨0, _⟩ => show win0_1.index t (0 : Fin 2) * 2048 + 1 * j.val = t.val * 2048 + j.val; omega
    | ⟨1, _⟩ => show win0_1.index t (1 : Fin 2) * 2048 + 1 * k.val = k.val; omega

/-- An index of the output is in step t's block iff each coordinate is in the block's range on its axis. -/
theorem mem_blk (t : Fin cfg0.N) (i : S256x65536.Idx) :
    i ∈ ((cfg0.win 2).blk t).view.set ↔ ∀ a : Fin 2, win0_2.index t a * S256x2048.size a ≤ (i a).val ∧ (i a).val < win0_2.index t a * S256x2048.size a + S256x2048.size a := by
  show i ∈ ((View.whole main_v0).slice (win0_2.rect t)).set ↔ _
  rw [View.set_slice_whole, Rect.mem_set_unit]
  exact Iff.rfl

/-- The 32 column blocks tile the output: entry (p, q) lies in the block of step q / 2048. -/
theorem cover (i : S256x65536.Idx) : ∃ t : Fin cfg0.N, (cfg0.win 2).flush t = true ∧ i ∈ ((cfg0.win 2).blk t).view.set := by
  have hi0 : (i 0).val < 256 := (i 0).isLt
  have hi1 : (i 1).val < 65536 := (i 1).isLt
  have hlt : (i 1).val / 2048 < cfg0.N := by rw [show cfg0.N = 32 from N_0]; omega
  refine ⟨⟨(i 1).val / 2048, hlt⟩, flush0_2 _, ?_⟩
  rw [mem_blk]
  obtain ⟨-, -, -, -, e4, e5⟩ := index_facts ⟨(i 1).val / 2048, hlt⟩
  have e5' : win0_2.index ⟨(i 1).val / 2048, hlt⟩ (1 : Fin 2) = (i 1).val / 2048 := e5
  intro a
  match a with
  | ⟨0, _⟩ =>
    show win0_2.index ⟨(i 1).val / 2048, hlt⟩ (0 : Fin 2) * 256 ≤ (i 0).val ∧ (i 0).val < win0_2.index ⟨(i 1).val / 2048, hlt⟩ (0 : Fin 2) * 256 + 256
    omega
  | ⟨1, _⟩ =>
    show win0_2.index ⟨(i 1).val / 2048, hlt⟩ (1 : Fin 2) * 2048 ≤ (i 1).val ∧ (i 1).val < win0_2.index ⟨(i 1).val / 2048, hlt⟩ (1 : Fin 2) * 2048 + 2048
    omega

/-- The output array after the run is the logits of the argument arrays. -/
theorem final (c : Dev nD) :
    (dats m 0 c).arrAt 2 cfg0.N = logits (m ((c : Thread nD τ).loc main_arg0)) (m ((c : Thread nD τ).loc main_arg3)) :=
  (dats m 0 c).arrAt_eq_of_cover 2 (logits (V m c main_arg0) (V m c main_arg3)) (fun t _ => flushed_eq m c t) cover

/-- The kernel's run: it ends with the output at the logits of the arguments and the arguments as they were. -/
theorem run : θ_run defs (onTc (τ := τ) (main (F := Ideal))) ⟨m, fun _ => 0, ρ⟩ fun r => ∀ c : Dev nD,
      r.2.mem ((c : Thread nD τ).loc main_v0) = logits (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LogitsArray

end
-- ==== Proof.lean ====
/-
  The similarity logits of 256 query rows against a memory bank of 65536 rows of 2048 features each: the kernel and the
  reference both end with the array whose entry (p, q) is the inner product of query row p and bank row q, the sum over
  the feature axis k of x[p, k] · f[q, k] on the extended reals (Proof/Logits.lean).

  The kernel walks the bank 2048 rows at a time over a grid of 32 steps. At step n it holds the whole query array and
  bank rows 2048·n … 2048·n + 2047, narrows both to a shorter float format — a change of format is the identity on the
  extended reals — and contracts the feature axis of both into a zero accumulator, so entry (p, j) of what it stores is
  the inner product of query row p and bank row 2048·n + j (Proof/BlockProduct.lean). It writes that as columns
  2048·n … 2048·n + 2047 of the output; the 32 column blocks tile the output, so the output ends at the logits
  (Proof/LogitsArray.lean). The reference transposes the bank, t[k, q] = f[q, k], and contracts the queries' feature
  axis with the transposed bank's first axis: the sum over k of x[p, k] · t[k, q], the same inner product
  (Proof/RefLogits.lean). No law beyond re-indexing the one sum is used, so finiteness of the inputs is never needed:
  the two unused arguments (a second query array and an integer index vector) are only carried along unchanged.

  The idealization rewrote no operation, so the kernel's idealized text is its own text read on the extended reals and
  there is nothing to preserve; the three programs' runs terminate with the arguments unchanged (the kernel's two by
  their launch's frame, the reference's by its straight-line run).
-/
import proofs.«405156_j42958262894874_3_alg».proof.Defs
import proofs.«405156_j42958262894874_3_alg».proof.Proof.Gen.Kernel
import proofs.«405156_j42958262894874_3_alg».proof.Proof.Gen.Kernel.Skeleton
import proofs.«405156_j42958262894874_3_alg».proof.Proof.Gen.Kernel.Launch
import proofs.«405156_j42958262894874_3_alg».proof.Proof.Gen.Kernel.Points
import proofs.«405156_j42958262894874_3_alg».proof.Proof.Gen.Kernel.Frame
import proofs.«405156_j42958262894874_3_alg».proof.Proof.Gen.KernelIdeal
import proofs.«405156_j42958262894874_3_alg».proof.Proof.Gen.KernelIdeal.Skeleton
import proofs.«405156_j42958262894874_3_alg».proof.Proof.Gen.KernelIdeal.Launch
import proofs.«405156_j42958262894874_3_alg».proof.Proof.Gen.KernelIdeal.Points
import proofs.«405156_j42958262894874_3_alg».proof.Proof.Gen.KernelIdeal.Frame
import proofs.«405156_j42958262894874_3_alg».proof.Proof.Gen.ReferenceIdeal
import proofs.«405156_j42958262894874_3_alg».proof.Proof.Gen.Pre_finite_inputs
import proofs.«405156_j42958262894874_3_alg».proof.Proof.Gen.KernelIdeal.Value
import proofs.«405156_j42958262894874_3_alg».proof.Proof.Gen.ReferenceIdeal.Run
import proofs.«405156_j42958262894874_3_alg».proof.Proof.Gen.ReferenceIdeal.Read
import proofs.«405156_j42958262894874_3_alg».proof.Proof.Logits
import proofs.«405156_j42958262894874_3_alg».proof.Proof.RefLogits
import proofs.«405156_j42958262894874_3_alg».proof.Proof.LogitsArray
import Idealize.ShloMosaic.Adequacy
import Idealize.ShloMosaic.Init

noncomputable section

namespace Cert.Proof

open Idealize.ShloMosaic Idealize.SL.Sem

/-- The kernel as printed terminates with its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference's two host operations run in order and leave the arguments unchanged. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- From memories agreeing on the arguments both programs end with the logits of the first and fourth argument: the
    kernel block by block, the reference through the transposed bank. -/
theorem algebraic : Cert.algebraic_KernelIdeal_ReferenceIdeal := by
  intro m ρ m' ρ' _ hagree
  refine ⟨_, Cert.KernelIdeal.LogitsArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.RefLogits.reference_is_logits,
    (hagree c).1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
